-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x207x2048 : Shape := ⟨4, ![64, 2, 207, 2048]⟩
abbrev S64 : Shape := ⟨1, ![64]⟩
abbrev S1722 : Shape := ⟨1, ![1722]⟩
abbrev S288x1722 : Shape := ⟨2, ![288, 1722]⟩
abbrev S288x207 : Shape := ⟨2, ![288, 207]⟩
abbrev S_ : Shape := ⟨0, ![]⟩

class Facts : Prop where
  bcast_S_S64x2x207x2048 : S_.BroadcastsInDim S64x2x207x2048 (![] : Fin 0 → Fin S64x2x207x2048.rank)
  reducesTo_S64x2x207x2048_S_d0_1_2_3 : S64x2x207x2048.ReducesTo [0, 1, 2, 3] S_
  h_S_ : 0 < S_.numel
  bcast_S_S288x1722 : S_.BroadcastsInDim S288x1722 (![] : Fin 0 → Fin S288x1722.rank)
  reducesTo_S288x1722_S_d0_1 : S288x1722.ReducesTo [0, 1] S_
  bcast_S_S288x207 : S_.BroadcastsInDim S288x207 (![] : Fin 0 → Fin S288x207.rank)
  reducesTo_S288x207_S_d0_1 : S288x207.ReducesTo [0, 1] S_

variable [Facts]

def fn {F : FTy → Type} [FloatOps F] (main_arg0 : FVec F S64x2x207x2048 .f32) (main_arg1 : IVec S64 32) (main_arg2 : IVec S1722 32) (main_arg3 : IVec S1722 32) (main_arg4 : FVec F S288x1722 .f32) (main_arg5 : FVec F S288x207 .f32) : IVec S_ 1 :=
  let main_v0 : FVec F S64x2x207x2048 .f32 := Host.absf main_arg0
  let main_cst : FVec F S_ .f32 := constant S_ .f32 0x7F800000#32
  let main_v1 : FVec F S64x2x207x2048 .f32 := broadcastInDim S64x2x207x2048 ![] bcast_S_S64x2x207x2048 main_cst
  let main_v2 : IVec S64x2x207x2048 1 := cmpf .olt main_v0 main_v1
  let main_c : IVec S_ 1 := constantI S_ 1 1#1
  let main_v3 : IVec S_ 1 := (fun x v => Host.reduce IntOp.andi x v reducesTo_S64x2x207x2048_S_d0_1_2_3 h_S_) main_v2 main_c
  let main_v4 : FVec F S288x1722 .f32 := Host.absf main_arg4
  let main_cst_0 : FVec F S_ .f32 := constant S_ .f32 0x7F800000#32
  let main_v5 : FVec F S288x1722 .f32 := broadcastInDim S288x1722 ![] bcast_S_S288x1722 main_cst_0
  let main_v6 : IVec S288x1722 1 := cmpf .olt main_v4 main_v5
  let main_c_1 : IVec S_ 1 := constantI S_ 1 1#1
  let main_v7 : IVec S_ 1 := (fun x v => Host.reduce IntOp.andi x v reducesTo_S288x1722_S_d0_1 h_S_) main_v6 main_c_1
  let main_v8 : IVec S_ 1 := andi main_v3 main_v7
  let main_v9 : FVec F S288x207 .f32 := Host.absf main_arg5
  let main_cst_2 : FVec F S_ .f32 := constant S_ .f32 0x7F800000#32
  let main_v10 : FVec F S288x207 .f32 := broadcastInDim S288x207 ![] bcast_S_S288x207 main_cst_2
  let main_v11 : IVec S288x207 1 := cmpf .olt main_v9 main_v10
  let main_c_3 : IVec S_ 1 := constantI S_ 1 1#1
  let main_v12 : IVec S_ 1 := (fun x v => Host.reduce IntOp.andi x v reducesTo_S288x207_S_d0_1 h_S_) main_v11 main_c_3
  let main_v13 : IVec S_ 1 := andi main_v8 main_v12
  main_v13
-- ==== Kernel.lean ====
abbrev S64x2x207x2048 : Shape := ⟨4, ![64, 2, 207, 2048]⟩
abbrev S64 : Shape := ⟨1, ![64]⟩
abbrev S1722 : Shape := ⟨1, ![1722]⟩
abbrev S288x1722 : Shape := ⟨2, ![288, 1722]⟩
abbrev S288x207 : Shape := ⟨2, ![288, 207]⟩
abbrev S64x1x207x2048 : Shape := ⟨4, ![64, 1, 207, 2048]⟩
abbrev S64x207x2048 : Shape := ⟨3, ![64, 207, 2048]⟩
abbrev S_ : Shape := ⟨0, ![]⟩
abbrev S64x1 : Shape := ⟨2, ![64, 1]⟩
abbrev S64x1722 : Shape := ⟨2, ![64, 1722]⟩
abbrev S64x207x207 : Shape := ⟨3, ![64, 207, 207]⟩
abbrev S1722x1 : Shape := ⟨2, ![1722, 1]⟩
abbrev S1722x2 : Shape := ⟨2, ![1722, 2]⟩
abbrev S64x207 : Shape := ⟨2, ![64, 207]⟩
abbrev S207x207 : Shape := ⟨2, ![207, 207]⟩
abbrev S64x207x1 : Shape := ⟨3, ![64, 207, 1]⟩
abbrev S1x207x207 : Shape := ⟨3, ![1, 207, 207]⟩
abbrev S1x207x2048 : Shape := ⟨3, ![1, 207, 2048]⟩
abbrev S1x207x1 : Shape := ⟨3, ![1, 207, 1]⟩
abbrev S207x2048 : Shape := ⟨2, ![207, 2048]⟩
abbrev S207x1 : Shape := ⟨2, ![207, 1]⟩

abbrev nBuf : Space → Nat
  | .hbm => 81
  | .vmem => 8
  | .smem => 0
  | _ => 0

abbrev bufTy : (tb : Table) → Fin (tcTables nBuf tb) → BufTy
  | .hbm, ⟨0, _⟩ => ⟨S64x2x207x2048, .f32⟩
  | .hbm, ⟨1, _⟩ => ⟨S64, .i32⟩
  | .hbm, ⟨2, _⟩ => ⟨S1722, .i32⟩
  | .hbm, ⟨3, _⟩ => ⟨S1722, .i32⟩
  | .hbm, ⟨4, _⟩ => ⟨S288x1722, .f32⟩
  | .hbm, ⟨5, _⟩ => ⟨S288x207, .f32⟩
  | .hbm, ⟨6, _⟩ => ⟨S64x1x207x2048, .f32⟩
  | .hbm, ⟨7, _⟩ => ⟨S64x207x2048, .f32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x1722, .f32⟩
  | .hbm, ⟨35, _⟩ => ⟨S_, .f32⟩
  | .hbm, ⟨36, _⟩ => ⟨S64x207x207, .f32⟩
  | .hbm, ⟨37, _⟩ => ⟨S_, .i32⟩
  | .hbm, ⟨38, _⟩ => ⟨S1722, .i32⟩
  | .hbm, ⟨39, _⟩ => ⟨S1722, .i1⟩
  | .hbm, ⟨40, _⟩ => ⟨S_, .i32⟩
  | .hbm, ⟨41, _⟩ => ⟨S1722, .i32⟩
  | .hbm, ⟨42, _⟩ => ⟨S1722, .i32⟩
  | .hbm, ⟨43, _⟩ => ⟨S1722, .i32⟩
  | .hbm, ⟨44, _⟩ => ⟨S_, .i32⟩
  | .hbm, ⟨45, _⟩ => ⟨S1722, .i32⟩
  | .hbm, ⟨46, _⟩ => ⟨S1722, .i1⟩
  | .hbm, ⟨47, _⟩ => ⟨S_, .i32⟩
  | .hbm, ⟨48, _⟩ => ⟨S1722, .i32⟩
  | .hbm, ⟨49, _⟩ => ⟨S1722, .i32⟩
  | .hbm, ⟨50, _⟩ => ⟨S1722, .i32⟩
  | .hbm, ⟨51, _⟩ => ⟨S1722x1, .i32⟩
  | .hbm, ⟨52, _⟩ => ⟨S1722x1, .i32⟩
  | .hbm, ⟨53, _⟩ => ⟨S1722x2, .i32⟩
  | .hbm, ⟨54, _⟩ => ⟨S64x207x207, .f32⟩
  | .hbm, ⟨55, _⟩ => ⟨S_, .f32⟩
  | .hbm, ⟨56, _⟩ => ⟨S64x207, .f32⟩
  | .hbm, ⟨57, _⟩ => ⟨S207x207, .i32⟩
  | .hbm, ⟨58, _⟩ => ⟨S207x207, .i32⟩
  | .hbm, ⟨59, _⟩ => ⟨S_, .i32⟩
  | .hbm, ⟨60, _⟩ => ⟨S207x207, .i32⟩
  | .hbm, ⟨61, _⟩ => ⟨S207x207, .i32⟩
  | .hbm, ⟨62, _⟩ => ⟨S207x207, .i1⟩
  | .hbm, ⟨63, _⟩ => ⟨S207x207, .f32⟩
  | .hbm, ⟨64, _⟩ => ⟨S64x207x1, .f32⟩
  | .hbm, ⟨65, _⟩ => ⟨S1x207x207, .f32⟩
  | .hbm, ⟨66, _⟩ => ⟨S64x207x207, .f32⟩
  | .hbm, ⟨67, _⟩ => ⟨S64x207x207, .f32⟩
  | .hbm, ⟨68, _⟩ => ⟨S64x207x207, .f32⟩
  | .hbm, ⟨69, _⟩ => ⟨S64x207x207, .f32⟩
  | .hbm, ⟨70, _⟩ => ⟨S_, .i32⟩
  | .hbm, ⟨71, _⟩ => ⟨S64, .i32⟩
  | .hbm, ⟨72, _⟩ => ⟨S64, .i1⟩
  | .hbm, ⟨73, _⟩ => ⟨S_, .i32⟩
  | .hbm, ⟨74, _⟩ => ⟨S64, .i32⟩
  | .hbm, ⟨75, _⟩ => ⟨S64, .i32⟩
  | .hbm, ⟨76, _⟩ => ⟨S64, .i32⟩
  | .hbm, ⟨77, _⟩ => ⟨S64x1, .i32⟩
  | .hbm, ⟨78, _⟩ => ⟨S64x207, .f32⟩
  | .hbm, ⟨79, _⟩ => ⟨S64x207x1, .f32⟩
  | .hbm, ⟨80, _⟩ => ⟨S64x207x2048, .f32⟩
  | .local _ .vmem, ⟨0, _⟩ => ⟨S1x207x2048, .f32⟩
  | .local _ .vmem, ⟨1, _⟩ => ⟨S1x207x2048, .f32⟩
  | .local _ .vmem, ⟨2, _⟩ => ⟨S1x207x207, .f32⟩
  | .local _ .vmem, ⟨3, _⟩ => ⟨S1x207x207, .f32⟩
  | .local _ .vmem, ⟨4, _⟩ => ⟨S1x207x1, .f32⟩
  | .local _ .vmem, ⟨5, _⟩ => ⟨S1x207x1, .f32⟩
  | .local _ .vmem, ⟨6, _⟩ => ⟨S1x207x2048, .f32⟩
  | .local _ .vmem, ⟨7, _⟩ => ⟨S1x207x2048, .f32⟩
  | _, _ => ⟨S64x2x207x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_c_3 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_7 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x207x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x207x207 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x207x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x207x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S64x2x207x2048_S64x1x207x2048_0_0_0_0 : S64x2x207x2048.Slices ![0, 0, 0, 0] S64x1x207x2048
  shapeCasts_S64x1x207x2048_S64x207x2048 : S64x1x207x2048.ShapeCasts S64x207x2048
  bcast_S_S64 : S_.BroadcastsInDim S64 (![] : Fin 0 → Fin S64.rank)
  bcast_S64_S64x1_0 : S64.BroadcastsInDim S64x1 (![0] : Fin 1 → Fin S64x1.rank)
  bcast_S_S64x207x207 : S_.BroadcastsInDim S64x207x207 (![] : Fin 0 → Fin S64x207x207.rank)
  bcast_S_S1722 : S_.BroadcastsInDim S1722 (![] : Fin 0 → Fin S1722.rank)
  bcast_S1722_S1722x1_0 : S1722.BroadcastsInDim S1722x1 (![0] : Fin 1 → Fin S1722x1.rank)
  concatenates_S1722x1_S1722x1_S1722x2_d1 : Shape.Concatenates [S1722x1, S1722x1] S1722x2 1
  reducesTo_S64x207x207_S64x207_d1 : S64x207x207.ReducesTo [1] S64x207
  h_S_ : 0 < S_.numel
  bcast_S_S207x207 : S_.BroadcastsInDim S207x207 (![] : Fin 0 → Fin S207x207.rank)
  bcast_S64x207_S64x207x1_0_1 : S64x207.BroadcastsInDim S64x207x1 (![0, 1] : Fin 2 → Fin S64x207x1.rank)
  bcast_S207x207_S1x207x207_1_2 : S207x207.BroadcastsInDim S1x207x207 (![1, 2] : Fin 2 → Fin S1x207x207.rank)
  bcast_S64x207x1_S64x207x207_0_1_2 : S64x207x1.BroadcastsInDim S64x207x207 (![0, 1, 2] : Fin 3 → Fin S64x207x207.rank)
  bcast_S1x207x207_S64x207x207_0_1_2 : S1x207x207.BroadcastsInDim S64x207x207 (![0, 1, 2] : Fin 3 → Fin S64x207x207.rank)
  inb_S1x207x2048_S1x207x2048_0_0_0 : ∀ a, (![0, 0, 0] : Fin 3 → Nat) a + S1x207x2048.size a ≤ S1x207x2048.size a
  h_S1x207x2048 : 0 < S1x207x2048.numel
  shapeCasts_S1x207x2048_S207x2048 : S1x207x2048.ShapeCasts S207x2048
  inb_S1x207x207_S1x207x207_0_0_0 : ∀ a, (![0, 0, 0] : Fin 3 → Nat) a + S1x207x207.size a ≤ S1x207x207.size a
  h_S1x207x207 : 0 < S1x207x207.numel
  shapeCasts_S1x207x207_S207x207 : S1x207x207.ShapeCasts S207x207
  inb_S1x207x1_S1x207x1_0_0_0 : ∀ a, (![0, 0, 0] : Fin 3 → Nat) a + S1x207x1.size a ≤ S1x207x1.size a
  h_S1x207x1 : 0 < S1x207x1.numel
  shapeCasts_S1x207x1_S207x1 : S1x207x1.ShapeCasts S207x1
  bitsLt_bf16_f32 : FTy.bits .bf16 < FTy.bits .f32
  broadcasts_S207x1_S207x2048 : S207x1.Broadcasts S207x2048
  shapeCasts_S207x2048_S1x207x2048 : S207x2048.ShapeCasts S1x207x2048
  gather_S288x1722_S64x1_S64x1722_1_0_n_n_0_1_11722_wf : GatherDims.WF S288x1722 S64x1 S64x1722 [1] [0] [] [0] [] 1 ![1, 1722]
  scatter_S64x207x207_S1722x2_S64x1722_0_12_12_1_wf : ScatterDims.WF S64x207x207 S1722x2 S64x1722 [0] [1, 2] [1, 2] 1
  gather_S288x207_S64x1_S64x207_1_0_n_n_0_1_1207_wf : GatherDims.WF S288x207 S64x1 S64x207 [1] [0] [] [0] [] 1 ![1, 207]
  dot_S207x207_S207x2048_S207x2048_1_0_0_1_n_n_wf : DotDims.WF S207x207 S207x2048 S207x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x207x2048.size a ≤ S64x207x2048.size a
  hwx0_0 : ∀ i : grid0.Coords, EltTy.bits .f32 = 32 ∨ (Rect.block (s := S64x207x2048) S1x207x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x207x207.size a ≤ S64x207x207.size a
  hwx0_1 : ∀ i : grid0.Coords, EltTy.bits .f32 = 32 ∨ (Rect.block (s := S64x207x207) S1x207x207.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x207x1.size a ≤ S64x207x1.size a
  hwx0_2 : ∀ i : grid0.Coords, EltTy.bits .f32 = 32 ∨ (Rect.block (s := S64x207x1) S1x207x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x207x2048.size a ≤ S64x207x2048.size a
  hwx0_3 : ∀ i : grid0.Coords, EltTy.bits .f32 = 32 ∨ (Rect.block (s := S64x207x2048) S1x207x2048.size (cc0_transform_3 i) (hinb0_3 i)).WholeWords (EltTy.packing .f32)

variable [Facts₀]

def gather_S288x1722_S64x1_S64x1722_1_0_n_n_0_1_11722 : GatherDims S288x1722 S64x1 S64x1722 where
  offsetDims := [1]
  collapsedSliceDims := [0]
  operandBatchingDims := []
  startIndicesBatchingDims := []
  startIndexMap := [0]
  indexVectorDim := 1
  sliceSizes := ![1, 1722]
  wf := gather_S288x1722_S64x1_S64x1722_1_0_n_n_0_1_11722_wf
def scatter_S64x207x207_S1722x2_S64x1722_0_12_12_1 : ScatterDims S64x207x207 S1722x2 S64x1722 where
  updateWindowDims := [0]
  insertedWindowDims := [1, 2]
  scatterDimsToOperandDims := [1, 2]
  indexVectorDim := 1
  wf := scatter_S64x207x207_S1722x2_S64x1722_0_12_12_1_wf
def gather_S288x207_S64x1_S64x207_1_0_n_n_0_1_1207 : GatherDims S288x207 S64x1 S64x207 where
  offsetDims := [1]
  collapsedSliceDims := [0]
  operandBatchingDims := []
  startIndicesBatchingDims := []
  startIndexMap := [0]
  indexVectorDim := 1
  sliceSizes := ![1, 207]
  wf := gather_S288x207_S64x1_S64x207_1_0_n_n_0_1_1207_wf
def dot_S207x207_S207x2048_S207x2048_1_0_0_1_n_n : DotDims S207x207 S207x2048 S207x2048 where
  lhsContracting := [1]
  rhsContracting := [0]
  lhsNonContracting := [0]
  rhsNonContracting := [1]
  lhsBatch := []
  rhsBatch := []
  wf := dot_S207x207_S207x2048_S207x2048_1_0_0_1_n_n_wf

abbrev win0_0 : Pipeline.Window sig grid0 :=
  Pipeline.Window.ofSpec (Memref.whole main_v1) S1x207x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x207x207.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x207x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x207x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2x207x2048 : Shape := ⟨4, ![64, 2, 207, 2048]⟩
abbrev S64 : Shape := ⟨1, ![64]⟩
abbrev S1722 : Shape := ⟨1, ![1722]⟩
abbrev S288x1722 : Shape := ⟨2, ![288, 1722]⟩
abbrev S288x207 : Shape := ⟨2, ![288, 207]⟩
abbrev S64x1x207x2048 : Shape := ⟨4, ![64, 1, 207, 2048]⟩
abbrev S64x207x2048 : Shape := ⟨3, ![64, 207, 2048]⟩
abbrev S_ : Shape := ⟨0, ![]⟩
abbrev S64x1 : Shape := ⟨2, ![64, 1]⟩
abbrev S64x1722 : Shape := ⟨2, ![64, 1722]⟩
abbrev S64x207x207 : Shape := ⟨3, ![64, 207, 207]⟩
abbrev S1722x1 : Shape := ⟨2, ![1722, 1]⟩
abbrev S1722x2 : Shape := ⟨2, ![1722, 2]⟩
abbrev S64x207 : Shape := ⟨2, ![64, 207]⟩
abbrev S64x207x1 : Shape := ⟨3, ![64, 207, 1]⟩
abbrev S207x207 : Shape := ⟨2, ![207, 207]⟩
abbrev S1x207x207 : Shape := ⟨3, ![1, 207, 207]⟩

abbrev nBuf : Space → Nat
  | .hbm => 84
  | .vmem => 0
  | .smem => 0
  | _ => 0

abbrev bufTy : (tb : Table) → Fin (tcTables nBuf tb) → BufTy
  | .hbm, ⟨0, _⟩ => ⟨S64x2x207x2048, .f32⟩
  | .hbm, ⟨1, _⟩ => ⟨S64, .i32⟩
  | .hbm, ⟨2, _⟩ => ⟨S1722, .i32⟩
  | .hbm, ⟨3, _⟩ => ⟨S1722, .i32⟩
  | .hbm, ⟨4, _⟩ => ⟨S288x1722, .f32⟩
  | .hbm, ⟨5, _⟩ => ⟨S288x207, .f32⟩
  | .hbm, ⟨6, _⟩ => ⟨S64x1x207x2048, .f32⟩
  | .hbm, ⟨7, _⟩ => ⟨S64x207x2048, .f32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x1722, .f32⟩
  | .hbm, ⟨35, _⟩ => ⟨S_, .f32⟩
  | .hbm, ⟨36, _⟩ => ⟨S64x207x207, .f32⟩
  | .hbm, ⟨37, _⟩ => ⟨S_, .i32⟩
  | .hbm, ⟨38, _⟩ => ⟨S1722, .i32⟩
  | .hbm, ⟨39, _⟩ => ⟨S1722, .i1⟩
  | .hbm, ⟨40, _⟩ => ⟨S_, .i32⟩
  | .hbm, ⟨41, _⟩ => ⟨S1722, .i32⟩
  | .hbm, ⟨42, _⟩ => ⟨S1722, .i32⟩
  | .hbm, ⟨43, _⟩ => ⟨S1722, .i32⟩
  | .hbm, ⟨44, _⟩ => ⟨S_, .i32⟩
  | .hbm, ⟨45, _⟩ => ⟨S1722, .i32⟩
  | .hbm, ⟨46, _⟩ => ⟨S1722, .i1⟩
  | .hbm, ⟨47, _⟩ => ⟨S_, .i32⟩
  | .hbm, ⟨48, _⟩ => ⟨S1722, .i32⟩
  | .hbm, ⟨49, _⟩ => ⟨S1722, .i32⟩
  | .hbm, ⟨50, _⟩ => ⟨S1722, .i32⟩
  | .hbm, ⟨51, _⟩ => ⟨S1722x1, .i32⟩
  | .hbm, ⟨52, _⟩ => ⟨S1722x1, .i32⟩
  | .hbm, ⟨53, _⟩ => ⟨S1722x2, .i32⟩
  | .hbm, ⟨54, _⟩ => ⟨S64x207x207, .f32⟩
  | .hbm, ⟨55, _⟩ => ⟨S_, .f32⟩
  | .hbm, ⟨56, _⟩ => ⟨S64x207, .f32⟩
  | .hbm, ⟨57, _⟩ => ⟨S64x207x1, .f32⟩
  | .hbm, ⟨58, _⟩ => ⟨S207x207, .i32⟩
  | .hbm, ⟨59, _⟩ => ⟨S207x207, .i32⟩
  | .hbm, ⟨60, _⟩ => ⟨S_, .i32⟩
  | .hbm, ⟨61, _⟩ => ⟨S207x207, .i32⟩
  | .hbm, ⟨62, _⟩ => ⟨S207x207, .i32⟩
  | .hbm, ⟨63, _⟩ => ⟨S207x207, .i1⟩
  | .hbm, ⟨64, _⟩ => ⟨S207x207, .f32⟩
  | .hbm, ⟨65, _⟩ => ⟨S1x207x207, .f32⟩
  | .hbm, ⟨66, _⟩ => ⟨S64x207x207, .f32⟩
  | .hbm, ⟨67, _⟩ => ⟨S64x207x207, .f32⟩
  | .hbm, ⟨68, _⟩ => ⟨S64x207x207, .f32⟩
  | .hbm, ⟨69, _⟩ => ⟨S64x207x207, .f32⟩
  | .hbm, ⟨70, _⟩ => ⟨S_, .i32⟩
  | .hbm, ⟨71, _⟩ => ⟨S64, .i32⟩
  | .hbm, ⟨72, _⟩ => ⟨S64, .i1⟩
  | .hbm, ⟨73, _⟩ => ⟨S_, .i32⟩
  | .hbm, ⟨74, _⟩ => ⟨S64, .i32⟩
  | .hbm, ⟨75, _⟩ => ⟨S64, .i32⟩
  | .hbm, ⟨76, _⟩ => ⟨S64, .i32⟩
  | .hbm, ⟨77, _⟩ => ⟨S64x1, .i32⟩
  | .hbm, ⟨78, _⟩ => ⟨S64x207, .f32⟩
  | .hbm, ⟨79, _⟩ => ⟨S64x207x1, .f32⟩
  | .hbm, ⟨80, _⟩ => ⟨S64x207x2048, .f32⟩
  | .hbm, ⟨81, _⟩ => ⟨S64x207x2048, .f32⟩
  | .hbm, ⟨82, _⟩ => ⟨S64x207x2048, .f32⟩
  | .hbm, ⟨83, _⟩ => ⟨S64x207x2048, .f32⟩
  | _, _ => ⟨S64x2x207x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_c_3 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_7 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩

abbrev nD : Nat := 1
abbrev τ : Topo := Topo.v7x

variable {F : FTy → Type} [FloatOps F]

class Facts₀ : Prop where
  slices_S64x2x207x2048_S64x1x207x2048_0_0_0_0 : S64x2x207x2048.Slices ![0, 0, 0, 0] S64x1x207x2048
  shapeCasts_S64x1x207x2048_S64x207x2048 : S64x1x207x2048.ShapeCasts S64x207x2048
  bcast_S_S64 : S_.BroadcastsInDim S64 (![] : Fin 0 → Fin S64.rank)
  bcast_S64_S64x1_0 : S64.BroadcastsInDim S64x1 (![0] : Fin 1 → Fin S64x1.rank)
  bcast_S_S64x207x207 : S_.BroadcastsInDim S64x207x207 (![] : Fin 0 → Fin S64x207x207.rank)
  bcast_S_S1722 : S_.BroadcastsInDim S1722 (![] : Fin 0 → Fin S1722.rank)
  bcast_S1722_S1722x1_0 : S1722.BroadcastsInDim S1722x1 (![0] : Fin 1 → Fin S1722x1.rank)
  concatenates_S1722x1_S1722x1_S1722x2_d1 : Shape.Concatenates [S1722x1, S1722x1] S1722x2 1
  reducesTo_S64x207x207_S64x207_d1 : S64x207x207.ReducesTo [1] S64x207
  h_S_ : 0 < S_.numel
  bcast_S64x207_S64x207x1_0_1 : S64x207.BroadcastsInDim S64x207x1 (![0, 1] : Fin 2 → Fin S64x207x1.rank)
  bcast_S_S207x207 : S_.BroadcastsInDim S207x207 (![] : Fin 0 → Fin S207x207.rank)
  bcast_S207x207_S1x207x207_1_2 : S207x207.BroadcastsInDim S1x207x207 (![1, 2] : Fin 2 → Fin S1x207x207.rank)
  bcast_S64x207x1_S64x207x207_0_1_2 : S64x207x1.BroadcastsInDim S64x207x207 (![0, 1, 2] : Fin 3 → Fin S64x207x207.rank)
  bcast_S1x207x207_S64x207x207_0_1_2 : S1x207x207.BroadcastsInDim S64x207x207 (![0, 1, 2] : Fin 3 → Fin S64x207x207.rank)
  bcast_S64x207x1_S64x207x2048_0_1_2 : S64x207x1.BroadcastsInDim S64x207x2048 (![0, 1, 2] : Fin 3 → Fin S64x207x2048.rank)
  gather_S288x1722_S64x1_S64x1722_1_0_n_n_0_1_11722_wf : GatherDims.WF S288x1722 S64x1 S64x1722 [1] [0] [] [0] [] 1 ![1, 1722]
  scatter_S64x207x207_S1722x2_S64x1722_0_12_12_1_wf : ScatterDims.WF S64x207x207 S1722x2 S64x1722 [0] [1, 2] [1, 2] 1
  gather_S288x207_S64x1_S64x207_1_0_n_n_0_1_1207_wf : GatherDims.WF S288x207 S64x1 S64x207 [1] [0] [] [0] [] 1 ![1, 207]
  dot_S64x207x207_S64x207x2048_S64x207x2048_2_1_1_2_0_0_wf : DotDims.WF S64x207x207 S64x207x2048 S64x207x2048 [2] [1] [1] [2] [0] [0]

variable [Facts₀]

def gather_S288x1722_S64x1_S64x1722_1_0_n_n_0_1_11722 : GatherDims S288x1722 S64x1 S64x1722 where
  offsetDims := [1]
  collapsedSliceDims := [0]
  operandBatchingDims := []
  startIndicesBatchingDims := []
  startIndexMap := [0]
  indexVectorDim := 1
  sliceSizes := ![1, 1722]
  wf := gather_S288x1722_S64x1_S64x1722_1_0_n_n_0_1_11722_wf
def scatter_S64x207x207_S1722x2_S64x1722_0_12_12_1 : ScatterDims S64x207x207 S1722x2 S64x1722 where
  updateWindowDims := [0]
  insertedWindowDims := [1, 2]
  scatterDimsToOperandDims := [1, 2]
  indexVectorDim := 1
  wf := scatter_S64x207x207_S1722x2_S64x1722_0_12_12_1_wf
def gather_S288x207_S64x1_S64x207_1_0_n_n_0_1_1207 : GatherDims S288x207 S64x1 S64x207 where
  offsetDims := [1]
  collapsedSliceDims := [0]
  operandBatchingDims := []
  startIndicesBatchingDims := []
  startIndexMap := [0]
  indexVectorDim := 1
  sliceSizes := ![1, 207]
  wf := gather_S288x207_S64x1_S64x207_1_0_n_n_0_1_1207_wf
def dot_S64x207x207_S64x207x2048_S64x207x2048_2_1_1_2_0_0 : DotDims S64x207x207 S64x207x2048 S64x207x2048 where
  lhsContracting := [2]
  rhsContracting := [1]
  lhsNonContracting := [1]
  rhsNonContracting := [2]
  lhsBatch := [0]
  rhsBatch := [0]
  wf := dot_S64x207x207_S64x207x2048_S64x207x2048_2_1_1_2_0_0_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.Spec.lean ====
/-
  The graph-diffusion step as one function of its three operands, entry by entry.

  Given, per batch element b, node features x[b] (207 nodes × 2048 lanes), a 207 × 207 Laplacian lap[b] and a bias
  column bias[b] (207 × 1), the step is

      out[b, w, l] = (∑ v, lap[b, w, v] · x[b, v, l]  +  bias[b, w, 0])  +  x[b, w, l]

  on the extended reals: the Laplacian applied to the features, the bias added to every lane of a node's row, and the
  features added back.  Both programs compute exactly this grouping of the two additions, so no law beyond reading
  each side at an entry is needed to join them.
-/
import Idealize.ShloMosaic.Lib.ValueIdx
import Idealize.ShloMosaic.PureOps.Ideal

noncomputable section

open scoped BigOperators

namespace GraphDiffusion

open Idealize.ShloMosaic Idealize.ShloMosaic.ValueIdx

/-- The step at the entry (b, w, l). -/
def stepAt (x : (⟨3, ![64, 207, 2048]⟩ : Shape).Idx → EReal) (lap : (⟨3, ![64, 207, 207]⟩ : Shape).Idx → EReal)
    (bias : (⟨3, ![64, 207, 1]⟩ : Shape).Idx → EReal) (b : Fin 64) (w : Fin 207) (l : Fin 2048) : EReal :=
  ((∑ v : Fin 207, lap (ix3 b w v) * x (ix3 b v l)) + bias (ix3 b w (0 : Fin 1))) + x (ix3 b w l)

/-- The step as a whole array. -/
def step (x : (⟨3, ![64, 207, 2048]⟩ : Shape).Idx → EReal) (lap : (⟨3, ![64, 207, 207]⟩ : Shape).Idx → EReal)
    (bias : (⟨3, ![64, 207, 1]⟩ : Shape).Idx → EReal) : (⟨3, ![64, 207, 2048]⟩ : Shape).Idx → EReal :=
  fun i => stepAt x lap bias (i 0) (i 1) (i 2)

theorem step_apply (x : (⟨3, ![64, 207, 2048]⟩ : Shape).Idx → EReal) (lap : (⟨3, ![64, 207, 207]⟩ : Shape).Idx → EReal)
    (bias : (⟨3, ![64, 207, 1]⟩ : Shape).Idx → EReal) (b : Fin 64) (w : Fin 207) (l : Fin 2048) :
    step x lap bias (ix3 b w l) = stepAt x lap bias b w l := rfl

end GraphDiffusion

end
-- ==== Proof.KernelValue.lean ====
/-
  What the kernel's result array holds after the run, at the exact instance: the graph-diffusion step of the three
  arrays the region is entered with.

  The grid has one point per batch element.  At point t the body sees block t of each operand — the 207 × 2048 slab
  x[t], the 207 × 207 Laplacian lap[t] and the 207 × 1 bias column bias[t], each behind a leading unit axis — and stores

      (lap[t] · x[t]  +  bias[t] broadcast along the lanes)  +  x[t]

  into block t of the result (the two roundings to bf16 in front of the product are the identity on exact values, and the
  product accumulates into zero).  Read at an entry (w, l) of the slab this is
  (∑ v, lap[t, w, v] · x[t, v, l] + bias[t, w, 0]) + x[t, w, l]: entry (t, w, l) of the step.  Every index of the result
  lies in exactly the block of its own batch element, so the blocks cover the array and it ends holding the step.
-/
import proofs.«121237_j90872918049151_1_alg».proof.Proof.Gen.KernelIdeal.Value
import proofs.«121237_j90872918049151_1_alg».proof.Proof.LibPlainDot
import proofs.«121237_j90872918049151_1_alg».proof.Proof.LibKeepdims
import proofs.«121237_j90872918049151_1_alg».proof.Proof.Spec
import Idealize.ShloMosaic.Lib.ValueLayout
import Idealize.ShloMosaic.Lib.Pipeline.Value

noncomputable section

open scoped BigOperators

namespace Cert.KernelIdeal.Diffusion

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The body's stored value at an entry -/

/-- The body's product is a plain 207 × 207 by 207 × 2048 matrix product. -/
theorem dot_plain : PlainDot.IsPlain (M := 207) (K := 207) (N := 2048) dot_S207x207_S207x2048_S207x2048_1_0_0_1_n_n :=
  ⟨rfl, rfl, rfl, rfl, rfl, rfl⟩

/-- What the body stores, at entry (u, w, l) of its 1 × 207 × 2048 block, from the three blocks it loads: the Laplacian
    block's row w against the feature block's column l, plus the bias of row w, plus the feature block's own entry. -/
theorem stored_apply (x0 : FVec Ideal S1x207x2048 .f32) (x1 : FVec Ideal S1x207x207 .f32) (x2 : FVec Ideal S1x207x1 .f32)
    (u : Fin 1) (w : Fin 207) (l : Fin 2048) :
    k0_pay1 (F := Ideal) x0 x1 x2 (ix3 u w l)
      = ((∑ v : Fin 207, x1 (ix3 (0 : Fin 1) w v) * x0 (ix3 (0 : Fin 1) v l)) + x2 (ix3 (0 : Fin 1) w (0 : Fin 1)))
          + x0 (ix3 (0 : Fin 1) w l) := by
  unfold k0_pay1
  refine (shapeCast_ab_1ab_apply _ _ u w l).trans ?_
  show (matmul dot_S207x207_S207x2048_S207x2048_1_0_0_1_n_n none _ _ (constant S207x2048 .f32 0x00000000#32) (ix2 w l)
      + broadcastTo S207x2048 _ broadcasts_S207x1_S207x2048 (ix2 w l)) + shapeCast S207x2048 x0 _ (ix2 w l) = _
  rw [PlainDot.matmul_zero_apply dot_plain none _ _ w l, KeepdimsLayout.broadcastTo_a1_ab_apply _ _ w l,
    shapeCast_1ab_ab_apply x2 _ w (0 : Fin 1), shapeCast_1ab_ab_apply x0 _ w l]
  refine congrArg (· + x2 (ix3 (0 : Fin 1) w (0 : Fin 1)) + x0 (ix3 (0 : Fin 1) w l)) (Finset.sum_congr rfl fun v _ => ?_)
  show shapeCast S207x207 x1 _ (ix2 w v) * shapeCast S207x2048 x0 _ (ix2 v l) = _
  rw [shapeCast_1ab_ab_apply x1 _ w v, shapeCast_1ab_ab_apply x0 _ v l]

/-! ## The operands' blocks at a grid point -/

/-- The three arrays the region is entered with, at their literal types. -/
abbrev xArr (c : Dev nD) : FVec Ideal S64x207x2048 .f32 := V m c main_v1
abbrev lapArr (c : Dev nD) : FVec Ideal S64x207x207 .f32 := V m c main_v37
abbrev biasArr (c : Dev nD) : FVec Ideal S64x207x1 .f32 := V m c main_v45

/-- Every window's block index at point t is (t, 0, 0): the grid walks the batch axis and nothing else (decided over
    the 64 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The feature window's block at point t is the slab of batch element t. -/
theorem xblk_apply (c : Dev nD) (t : Fin cfg0.N) (b : Fin 64) (hb : b.val = t.val) (u : Fin 1) (w : Fin 207) (l : Fin 2048) :
    (iblk m c 0 t : FVec Ideal S1x207x2048 .f32) (ix3 u w l) = xArr m c (ix3 b w l) := by
  obtain ⟨⟨e0, e1, e2⟩, -⟩ := idx_facts t
  unfold iblk
  rw [View.read_apply]
  show V m c main_v1 _ = V m c main_v1 _
  congr 1
  funext a
  apply Fin.ext
  have hu : u.val = 0 := by omega
  match a with
  | ⟨0, _⟩ => show win0_0.index t (0 : Fin 3) * 1 + 1 * u.val = b.val; rw [e0, hb, hu]; omega
  | ⟨1, _⟩ => show win0_0.index t (1 : Fin 3) * 207 + 1 * w.val = w.val; rw [e1]; omega
  | ⟨2, _⟩ => show win0_0.index t (2 : Fin 3) * 2048 + 1 * l.val = l.val; rw [e2]; omega

/-- The Laplacian window's block at point t is the matrix of batch element t. -/
theorem lapblk_apply (c : Dev nD) (t : Fin cfg0.N) (b : Fin 64) (hb : b.val = t.val) (u : Fin 1) (w v : Fin 207) :
    (iblk m c 1 t : FVec Ideal S1x207x207 .f32) (ix3 u w v) = lapArr m c (ix3 b w v) := by
  obtain ⟨-, ⟨e0, e1, e2⟩, -⟩ := idx_facts t
  unfold iblk
  rw [View.read_apply]
  show V m c main_v37 _ = V m c main_v37 _
  congr 1
  funext a
  apply Fin.ext
  have hu : u.val = 0 := by omega
  match a with
  | ⟨0, _⟩ => show win0_1.index t (0 : Fin 3) * 1 + 1 * u.val = b.val; rw [e0, hb, hu]; omega
  | ⟨1, _⟩ => show win0_1.index t (1 : Fin 3) * 207 + 1 * w.val = w.val; rw [e1]; omega
  | ⟨2, _⟩ => show win0_1.index t (2 : Fin 3) * 207 + 1 * v.val = v.val; rw [e2]; omega

/-- The bias window's block at point t is the column of batch element t. -/
theorem biasblk_apply (c : Dev nD) (t : Fin cfg0.N) (b : Fin 64) (hb : b.val = t.val) (u : Fin 1) (w : Fin 207) (z : Fin 1) :
    (iblk m c 2 t : FVec Ideal S1x207x1 .f32) (ix3 u w z) = biasArr m c (ix3 b w z) := by
  obtain ⟨-, -, ⟨e0, e1, e2⟩, -⟩ := idx_facts t
  unfold iblk
  rw [View.read_apply]
  show V m c main_v45 _ = V m c main_v45 _
  congr 1
  funext a
  apply Fin.ext
  have hu : u.val = 0 := by omega
  match a with
  | ⟨0, _⟩ => show win0_2.index t (0 : Fin 3) * 1 + 1 * u.val = b.val; rw [e0, hb, hu]; omega
  | ⟨1, _⟩ => show win0_2.index t (1 : Fin 3) * 207 + 1 * w.val = w.val; rw [e1]; omega
  | ⟨2, _⟩ => show win0_2.index t (2 : Fin 3) * 1 + 1 * z.val = z.val; rw [e2]; omega

/-! ## From the blocks to the array -/

/-- What the result array ends holding: the step of the three arrays the region is entered with. -/
abbrev result (c : Dev nD) : FVec Ideal S64x207x2048 .f32 :=
  GraphDiffusion.step (xArr m c) (lapArr m c) (biasArr m c)

theorem hz : (![0, 0, 0] : Fin 3 → Nat) = fun _ => 0 := funext fun a => by fin_cases a <;> rfl

/-- WHAT POINT t WRITES BACK is block t of the step. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S1x207x2048) hz, View.ld_unit_zero (S := S1x207x207) hz, View.ld_unit_zero (S := S1x207x1) hz]
  obtain ⟨-, -, -, ⟨e0, e1, e2⟩⟩ := idx_facts t
  have hN : cfg0.N = 64 := N_0
  have hb : (⟨t.val, hN ▸ t.isLt⟩ : Fin 64).val = t.val := rfl
  funext j
  obtain ⟨u, w, l, rfl⟩ : ∃ (u : Fin 1) (w : Fin 207) (l : Fin 2048), j = ix3 u w l := ⟨j 0, j 1, j 2, eq_ix3 j⟩
  have hu : u.val = 0 := by omega
  have hemb : ((cfg0.win 3).blk t).view.emb (ix3 u w l) = (ix3 (⟨t.val, hN ▸ t.isLt⟩ : Fin 64) w l : S64x207x2048.Idx) := by
    funext a
    apply Fin.ext
    match a with
    | ⟨0, _⟩ => show win0_3.index t (0 : Fin 3) * 1 + 1 * u.val = t.val; rw [e0, hu]; omega
    | ⟨1, _⟩ => show win0_3.index t (1 : Fin 3) * 207 + 1 * w.val = w.val; rw [e1]; omega
    | ⟨2, _⟩ => show win0_3.index t (2 : Fin 3) * 2048 + 1 * l.val = l.val; rw [e2]; omega
  show k0_pay1 (F := Ideal) (iblk m c 0 t) (iblk m c 1 t) (iblk m c 2 t) (ix3 u w l)
    = result m c (((cfg0.win 3).blk t).view.emb (ix3 u w l))
  rw [hemb, stored_apply]
  show _ = GraphDiffusion.stepAt (xArr m c) (lapArr m c) (biasArr m c) _ w l
  unfold GraphDiffusion.stepAt
  rw [xblk_apply m c t _ hb (0 : Fin 1) w l, biasblk_apply m c t _ hb (0 : Fin 1) w (0 : Fin 1)]
  refine congrArg (· + biasArr m c (ix3 _ w (0 : Fin 1)) + xArr m c (ix3 _ w l)) (Finset.sum_congr rfl fun v _ => ?_)
  rw [lapblk_apply m c t _ hb (0 : Fin 1) w v, xblk_apply m c t _ hb (0 : Fin 1) v l]

/-- An index of the array is in point t's block iff each coordinate is in the block's range on its axis. -/
theorem mem_blk (t : Fin cfg0.N) (i : S64x207x2048.Idx) :
    i ∈ ((cfg0.win 3).blk t).view.set ↔ ∀ a : Fin 3, win0_3.index t a * S1x207x2048.size a ≤ (i a).val
      ∧ (i a).val < win0_3.index t a * S1x207x2048.size a + S1x207x2048.size a := by
  show i ∈ ((View.whole main_v46).slice (win0_3.rect t)).set ↔ _
  rw [View.set_slice_whole, Rect.mem_set_unit]
  exact Iff.rfl

/-- Every index of the result lies in the block of its own batch element. -/
theorem cover (i : S64x207x2048.Idx) :
    ∃ t : Fin cfg0.N, (cfg0.win 3).flush t = true ∧ i ∈ ((cfg0.win 3).blk t).view.set := by
  have hN : cfg0.N = 64 := N_0
  have h0 : (i 0).val < 64 := (i 0).isLt
  have h1 : (i 1).val < 207 := (i 1).isLt
  have h2 : (i 2).val < 2048 := (i 2).isLt
  obtain ⟨t, ht⟩ : ∃ t : Fin cfg0.N, t.val = (i 0).val := ⟨⟨(i 0).val, by rw [hN]; exact h0⟩, rfl⟩
  refine ⟨t, flush0_3 t, ?_⟩
  obtain ⟨-, -, -, ⟨e0, e1, e2⟩⟩ := idx_facts t
  rw [mem_blk]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 207 ≤ (i 1).val ∧ (i 1).val < win0_3.index t (1 : Fin 3) * 207 + 207
    rw [e1]; omega
  | ⟨2, _⟩ =>
    show win0_3.index t (2 : Fin 3) * 2048 ≤ (i 2).val ∧ (i 2).val < win0_3.index t (2 : Fin 3) * 2048 + 2048
    rw [e2]; omega

/-- THE ARRAY after the run is the step. -/
theorem final (c : Dev nD) : (dats m 0 c).arrAt 3 cfg0.N = result m c :=
  (dats m 0 c).arrAt_eq_of_cover 3 (result m c) (fun t _ => flushed_eq m c t) cover

/-- The run, read: the result array at the step of the arrays the region is entered with, the arguments unchanged. -/
theorem run : θ_run defs (onTc (τ := τ) (main (F := Ideal))) ⟨m, fun _ => 0, ρ⟩ fun r => ∀ c : Dev nD,
      r.2.mem ((c : Thread nD τ).loc main_v46) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Diffusion

end
-- ==== Proof.RefRun.lean ====
/-
  The reference program's run, read back.

  The reference is one straight line of host operations once the outlined integer floor division (and the select it
  calls in turn) is written at its call site.  The line is cut in two: the GLUE, which prepares the three operands of
  the diffusion step — the feature slab x (channel 0 of the input, its unit axis reshaped away), the per-batch Laplacian
  (edge weights gathered by time slot, scatter-added into a dense matrix W, its column sums on the diagonal, minus W) and
  the per-batch bias column (gathered by time slot) —, and the TAIL of four operations, which is the step itself: the
  batched product of the Laplacian with x, the bias broadcast along the lanes and added, and x added back.  Every weakly
  fair execution terminates with the result at the tail's term of what the glue leaves, and the arguments unchanged.
-/
import proofs.«121237_j90872918049151_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The glue: the 74 operations that prepare x (`main_v1`), the Laplacian (`main_v37`) and the bias column
    (`main_v45`), in order, the floor division's seventeen at its call site. -/
abbrev glueOps : List (HloOp τ sig (Elt F)) :=
  [ StableHlo.unary main_arg0 main_v0 ((extractStridedSlice S64x1x207x2048 ![0, 0, 0, 0] · slices_S64x2x207x2048_S64x1x207x2048_0_0_0_0) : (⟨S64x2x207x2048, .f32⟩ : BufTy).Contents (Elt F) → (⟨S64x1x207x2048, .f32⟩ : BufTy).Contents (Elt F)),
    StableHlo.reshape main_v0 main_v1 rfl shapeCasts_S64x1x207x2048_S64x207x2048,
    StableHlo.nullary main_c (constantI S_ 32 1#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S64, .i32⟩) (broadcastInDim S64 ![] bcast_S_S64),
    StableHlo.TRef.binary (.of main_arg1 : StableHlo.TRef sig ⟨S64, .i32⟩) (.of main_call0_v1 : StableHlo.TRef sig ⟨S64, .i32⟩) (.of main_call0_v2 : StableHlo.TRef sig ⟨S64, .i32⟩) Host.divsi,
    StableHlo.TRef.unary (.of main_arg1 : StableHlo.TRef sig ⟨S64, .i32⟩) (.of main_call0_v3 : StableHlo.TRef sig ⟨S64, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S64, .i32⟩) (broadcastInDim S64 ![] bcast_S_S64),
    StableHlo.TRef.binary (.of main_call0_v3 : StableHlo.TRef sig ⟨S64, .i32⟩) (.of main_call0_v5 : StableHlo.TRef sig ⟨S64, .i32⟩) (.of main_call0_v6 : StableHlo.TRef sig ⟨S64, .i1⟩) (cmpi .ne),
    StableHlo.TRef.unary (.of main_call0_v0 : StableHlo.TRef sig ⟨S_, .i32⟩) (.of main_call0_v7 : StableHlo.TRef sig ⟨S64, .i32⟩) (broadcastInDim S64 ![] bcast_S_S64),
    StableHlo.TRef.binary (.of main_arg1 : StableHlo.TRef sig ⟨S64, .i32⟩) (.of main_call0_v7 : StableHlo.TRef sig ⟨S64, .i32⟩) (.of main_call0_v8 : StableHlo.TRef sig ⟨S64, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S64, .i32⟩) (broadcastInDim S64 ![] bcast_S_S64),
    StableHlo.TRef.binary (.of main_call0_v8 : StableHlo.TRef sig ⟨S64, .i32⟩) (.of main_call0_v9 : StableHlo.TRef sig ⟨S64, .i32⟩) (.of main_call0_v10 : StableHlo.TRef sig ⟨S64, .i1⟩) (cmpi .ne),
    StableHlo.TRef.binary (.of main_call0_v6 : StableHlo.TRef sig ⟨S64, .i1⟩) (.of main_call0_v10 : StableHlo.TRef sig ⟨S64, .i1⟩) (.of main_call0_v11 : StableHlo.TRef sig ⟨S64, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S64, .i32⟩) (broadcastInDim S64 ![] bcast_S_S64),
    StableHlo.TRef.binary (.of main_call0_v2 : StableHlo.TRef sig ⟨S64, .i32⟩) (.of main_call0_v12 : StableHlo.TRef sig ⟨S64, .i32⟩) (.of main_call0_v13 : StableHlo.TRef sig ⟨S64, .i32⟩) subi,
    StableHlo.TRef.ternary (.of main_call0_v11 : StableHlo.TRef sig ⟨S64, .i1⟩) (.of main_call0_v13 : StableHlo.TRef sig ⟨S64, .i32⟩) (.of main_call0_v2 : StableHlo.TRef sig ⟨S64, .i32⟩) (.of main_v2 : StableHlo.TRef sig ⟨S64, .i32⟩) select,
    StableHlo.nullary main_c_0 (constantI S_ 32 0#32),
    StableHlo.unary main_c_0 main_v3 (broadcastInDim S64 ![] bcast_S_S64 : (⟨S_, .i32⟩ : BufTy).Contents (Elt F) → (⟨S64, .i32⟩ : BufTy).Contents (Elt F)),
    StableHlo.binary main_v2 main_v3 main_v4 (cmpi .slt : (⟨S64, .i32⟩ : BufTy).Contents (Elt F) → (⟨S64, .i32⟩ : BufTy).Contents (Elt F) → (⟨S64, .i1⟩ : BufTy).Contents (Elt F)),
    StableHlo.nullary main_c_1 (constantI S_ 32 288#32),
    StableHlo.unary main_c_1 main_v5 (broadcastInDim S64 ![] bcast_S_S64 : (⟨S_, .i32⟩ : BufTy).Contents (Elt F) → (⟨S64, .i32⟩ : BufTy).Contents (Elt F)),
    StableHlo.binary main_v2 main_v5 main_v6 (addi : (⟨S64, .i32⟩ : BufTy).Contents (Elt F) → (⟨S64, .i32⟩ : BufTy).Contents (Elt F) → (⟨S64, .i32⟩ : BufTy).Contents (Elt F)),
    StableHlo.ternary main_v4 main_v6 main_v2 main_v7 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v7 main_v8 (broadcastInDim S64x1 ![0] bcast_S64_S64x1_0 : (⟨S64, .i32⟩ : BufTy).Contents (Elt F) → (⟨S64x1, .i32⟩ : BufTy).Contents (Elt F)),
    StableHlo.binary main_arg4 main_v8 main_v9 ((fun x i => Host.gather gather_S288x1722_S64x1_S64x1722_1_0_n_n_0_1_11722 x i) : (⟨S288x1722, .f32⟩ : BufTy).Contents (Elt F) → (⟨S64x1, .i32⟩ : BufTy).Contents (Elt F) → (⟨S64x1722, .f32⟩ : BufTy).Contents (Elt F)),
    StableHlo.nullary main_cst (constant S_ .f32 0x00000000#32),
    StableHlo.unary main_cst main_v10 (broadcastInDim S64x207x207 ![] bcast_S_S64x207x207 : (⟨S_, .f32⟩ : BufTy).Contents (Elt F) → (⟨S64x207x207, .f32⟩ : BufTy).Contents (Elt F)),
    StableHlo.nullary main_c_2 (constantI S_ 32 0#32),
    StableHlo.unary main_c_2 main_v11 (broadcastInDim S1722 ![] bcast_S_S1722 : (⟨S_, .i32⟩ : BufTy).Contents (Elt F) → (⟨S1722, .i32⟩ : BufTy).Contents (Elt F)),
    StableHlo.binary main_arg2 main_v11 main_v12 (cmpi .slt : (⟨S1722, .i32⟩ : BufTy).Contents (Elt F) → (⟨S1722, .i32⟩ : BufTy).Contents (Elt F) → (⟨S1722, .i1⟩ : BufTy).Contents (Elt F)),
    StableHlo.nullary main_c_3 (constantI S_ 32 207#32),
    StableHlo.unary main_c_3 main_v13 (broadcastInDim S1722 ![] bcast_S_S1722 : (⟨S_, .i32⟩ : BufTy).Contents (Elt F) → (⟨S1722, .i32⟩ : BufTy).Contents (Elt F)),
    StableHlo.binary main_arg2 main_v13 main_v14 (addi : (⟨S1722, .i32⟩ : BufTy).Contents (Elt F) → (⟨S1722, .i32⟩ : BufTy).Contents (Elt F) → (⟨S1722, .i32⟩ : BufTy).Contents (Elt F)),
    StableHlo.ternary main_v12 main_v14 main_arg2 main_v15 (select : (⟨S1722, .i1⟩ : BufTy).Contents (Elt F) → (⟨S1722, .i32⟩ : BufTy).Contents (Elt F) → (⟨S1722, .i32⟩ : BufTy).Contents (Elt F) → (⟨S1722, .i32⟩ : BufTy).Contents (Elt F)),
    StableHlo.nullary main_c_4 (constantI S_ 32 0#32),
    StableHlo.unary main_c_4 main_v16 (broadcastInDim S1722 ![] bcast_S_S1722 : (⟨S_, .i32⟩ : BufTy).Contents (Elt F) → (⟨S1722, .i32⟩ : BufTy).Contents (Elt F)),
    StableHlo.binary main_arg3 main_v16 main_v17 (cmpi .slt : (⟨S1722, .i32⟩ : BufTy).Contents (Elt F) → (⟨S1722, .i32⟩ : BufTy).Contents (Elt F) → (⟨S1722, .i1⟩ : BufTy).Contents (Elt F)),
    StableHlo.nullary main_c_5 (constantI S_ 32 207#32),
    StableHlo.unary main_c_5 main_v18 (broadcastInDim S1722 ![] bcast_S_S1722 : (⟨S_, .i32⟩ : BufTy).Contents (Elt F) → (⟨S1722, .i32⟩ : BufTy).Contents (Elt F)),
    StableHlo.binary main_arg3 main_v18 main_v19 (addi : (⟨S1722, .i32⟩ : BufTy).Contents (Elt F) → (⟨S1722, .i32⟩ : BufTy).Contents (Elt F) → (⟨S1722, .i32⟩ : BufTy).Contents (Elt F)),
    StableHlo.ternary main_v17 main_v19 main_arg3 main_v20 (select : (⟨S1722, .i1⟩ : BufTy).Contents (Elt F) → (⟨S1722, .i32⟩ : BufTy).Contents (Elt F) → (⟨S1722, .i32⟩ : BufTy).Contents (Elt F) → (⟨S1722, .i32⟩ : BufTy).Contents (Elt F)),
    StableHlo.unary main_v15 main_v21 (broadcastInDim S1722x1 ![0] bcast_S1722_S1722x1_0 : (⟨S1722, .i32⟩ : BufTy).Contents (Elt F) → (⟨S1722x1, .i32⟩ : BufTy).Contents (Elt F)),
    StableHlo.unary main_v20 main_v22 (broadcastInDim S1722x1 ![0] bcast_S1722_S1722x1_0 : (⟨S1722, .i32⟩ : BufTy).Contents (Elt F) → (⟨S1722x1, .i32⟩ : BufTy).Contents (Elt F)),
    StableHlo.binary main_v21 main_v22 main_v23 ((fun a b => concatenate S1722x2 1 [⟨S1722x1, a⟩, ⟨S1722x1, b⟩] concatenates_S1722x1_S1722x1_S1722x2_d1) : (⟨S1722x1, .i32⟩ : BufTy).Contents (Elt F) → (⟨S1722x1, .i32⟩ : BufTy).Contents (Elt F) → (⟨S1722x2, .i32⟩ : BufTy).Contents (Elt F)),
    StableHlo.ternary main_v10 main_v23 main_v9 main_v24 ((fun x i u => Host.scatterAdd scatter_S64x207x207_S1722x2_S64x1722_0_12_12_1 x i u) : (⟨S64x207x207, .f32⟩ : BufTy).Contents (Elt F) → (⟨S1722x2, .i32⟩ : BufTy).Contents (Elt F) → (⟨S64x1722, .f32⟩ : BufTy).Contents (Elt F) → (⟨S64x207x207, .f32⟩ : BufTy).Contents (Elt F)),
    StableHlo.nullary main_cst_6 (constant S_ .f32 0x00000000#32),
    StableHlo.binary main_v24 main_cst_6 main_v25 ((fun x v => Host.reduceAdd x v reducesTo_S64x207x207_S64x207_d1 h_S_) : (⟨S64x207x207, .f32⟩ : BufTy).Contents (Elt F) → (⟨S_, .f32⟩ : BufTy).Contents (Elt F) → (⟨S64x207, .f32⟩ : BufTy).Contents (Elt F)),
    StableHlo.unary main_v25 main_v26 (broadcastInDim S64x207x1 ![0, 1] bcast_S64x207_S64x207x1_0_1 : (⟨S64x207, .f32⟩ : BufTy).Contents (Elt F) → (⟨S64x207x1, .f32⟩ : BufTy).Contents (Elt F)),
    StableHlo.nullary main_v27 (iotaInDim S207x207 32 0),
    StableHlo.nullary main_v28 (iotaInDim S207x207 32 1),
    StableHlo.nullary main_c_7 (constantI S_ 32 0#32),
    StableHlo.unary main_c_7 main_v29 (broadcastInDim S207x207 ![] bcast_S_S207x207 : (⟨S_, .i32⟩ : BufTy).Contents (Elt F) → (⟨S207x207, .i32⟩ : BufTy).Contents (Elt F)),
    StableHlo.binary main_v27 main_v29 main_v30 (addi : (⟨S207x207, .i32⟩ : BufTy).Contents (Elt F) → (⟨S207x207, .i32⟩ : BufTy).Contents (Elt F) → (⟨S207x207, .i32⟩ : BufTy).Contents (Elt F)),
    StableHlo.binary main_v30 main_v28 main_v31 (cmpi .eq : (⟨S207x207, .i32⟩ : BufTy).Contents (Elt F) → (⟨S207x207, .i32⟩ : BufTy).Contents (Elt F) → (⟨S207x207, .i1⟩ : BufTy).Contents (Elt F)),
    StableHlo.unary main_v31 main_v32 (uitofp .f32 : (⟨S207x207, .i1⟩ : BufTy).Contents (Elt F) → (⟨S207x207, .f32⟩ : BufTy).Contents (Elt F)),
    StableHlo.unary main_v32 main_v33 (broadcastInDim S1x207x207 ![1, 2] bcast_S207x207_S1x207x207_1_2 : (⟨S207x207, .f32⟩ : BufTy).Contents (Elt F) → (⟨S1x207x207, .f32⟩ : BufTy).Contents (Elt F)),
    StableHlo.unary main_v26 main_v34 (broadcastInDim S64x207x207 ![0, 1, 2] bcast_S64x207x1_S64x207x207_0_1_2 : (⟨S64x207x1, .f32⟩ : BufTy).Contents (Elt F) → (⟨S64x207x207, .f32⟩ : BufTy).Contents (Elt F)),
    StableHlo.unary main_v33 main_v35 (broadcastInDim S64x207x207 ![0, 1, 2] bcast_S1x207x207_S64x207x207_0_1_2 : (⟨S1x207x207, .f32⟩ : BufTy).Contents (Elt F) → (⟨S64x207x207, .f32⟩ : BufTy).Contents (Elt F)),
    StableHlo.binary main_v34 main_v35 main_v36 (mulf : (⟨S64x207x207, .f32⟩ : BufTy).Contents (Elt F) → (⟨S64x207x207, .f32⟩ : BufTy).Contents (Elt F) → (⟨S64x207x207, .f32⟩ : BufTy).Contents (Elt F)),
    StableHlo.binary main_v36 main_v24 main_v37 (subf : (⟨S64x207x207, .f32⟩ : BufTy).Contents (Elt F) → (⟨S64x207x207, .f32⟩ : BufTy).Contents (Elt F) → (⟨S64x207x207, .f32⟩ : BufTy).Contents (Elt F)),
    StableHlo.nullary main_c_8 (constantI S_ 32 0#32),
    StableHlo.unary main_c_8 main_v38 (broadcastInDim S64 ![] bcast_S_S64 : (⟨S_, .i32⟩ : BufTy).Contents (Elt F) → (⟨S64, .i32⟩ : BufTy).Contents (Elt F)),
    StableHlo.binary main_v2 main_v38 main_v39 (cmpi .slt : (⟨S64, .i32⟩ : BufTy).Contents (Elt F) → (⟨S64, .i32⟩ : BufTy).Contents (Elt F) → (⟨S64, .i1⟩ : BufTy).Contents (Elt F)),
    StableHlo.nullary main_c_9 (constantI S_ 32 288#32),
    StableHlo.unary main_c_9 main_v40 (broadcastInDim S64 ![] bcast_S_S64 : (⟨S_, .i32⟩ : BufTy).Contents (Elt F) → (⟨S64, .i32⟩ : BufTy).Contents (Elt F)),
    StableHlo.binary main_v2 main_v40 main_v41 (addi : (⟨S64, .i32⟩ : BufTy).Contents (Elt F) → (⟨S64, .i32⟩ : BufTy).Contents (Elt F) → (⟨S64, .i32⟩ : BufTy).Contents (Elt F)),
    StableHlo.ternary main_v39 main_v41 main_v2 main_v42 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v42 main_v43 (broadcastInDim S64x1 ![0] bcast_S64_S64x1_0 : (⟨S64, .i32⟩ : BufTy).Contents (Elt F) → (⟨S64x1, .i32⟩ : BufTy).Contents (Elt F)),
    StableHlo.binary main_arg5 main_v43 main_v44 ((fun x i => Host.gather gather_S288x207_S64x1_S64x207_1_0_n_n_0_1_1207 x i) : (⟨S288x207, .f32⟩ : BufTy).Contents (Elt F) → (⟨S64x1, .i32⟩ : BufTy).Contents (Elt F) → (⟨S64x207, .f32⟩ : BufTy).Contents (Elt F)),
    StableHlo.unary main_v44 main_v45 (broadcastInDim S64x207x1 ![0, 1] bcast_S64x207_S64x207x1_0_1 : (⟨S64x207, .f32⟩ : BufTy).Contents (Elt F) → (⟨S64x207x1, .f32⟩ : BufTy).Contents (Elt F)) ]

/-- The tail: the batched product, the bias broadcast, and the two additions. -/
abbrev tailOps : List (HloOp τ sig (Elt F)) :=
  [ StableHlo.binary main_v37 main_v1 main_v46 ((fun l r => Host.dotGeneral dot_S64x207x207_S64x207x2048_S64x207x2048_2_1_1_2_0_0 none l r) : (⟨S64x207x207, .f32⟩ : BufTy).Contents (Elt F) → (⟨S64x207x2048, .f32⟩ : BufTy).Contents (Elt F) → (⟨S64x207x2048, .f32⟩ : BufTy).Contents (Elt F)),
    StableHlo.unary main_v45 main_v47 (broadcastInDim S64x207x2048 ![0, 1, 2] bcast_S64x207x1_S64x207x2048_0_1_2 : (⟨S64x207x1, .f32⟩ : BufTy).Contents (Elt F) → (⟨S64x207x2048, .f32⟩ : BufTy).Contents (Elt F)),
    StableHlo.binary main_v46 main_v47 main_v48 (addf : (⟨S64x207x2048, .f32⟩ : BufTy).Contents (Elt F) → (⟨S64x207x2048, .f32⟩ : BufTy).Contents (Elt F) → (⟨S64x207x2048, .f32⟩ : BufTy).Contents (Elt F)),
    StableHlo.binary main_v48 main_v1 main_v49 (addf : (⟨S64x207x2048, .f32⟩ : BufTy).Contents (Elt F) → (⟨S64x207x2048, .f32⟩ : BufTy).Contents (Elt F) → (⟨S64x207x2048, .f32⟩ : BufTy).Contents (Elt F)) ]

/-- @main's 78 operations, in order. -/
abbrev ops : List (HloOp τ sig (Elt F)) := glueOps ++ tailOps

-- the binds of 78 statements are re-associated one by one
set_option maxRecDepth 4096 in
set_option maxHeartbeats 4000000 in
/-- @main is that straight line: its two windows and the two outlined functions unfolded, both sides are one chain of
    `hlo` steps once sequencing is re-associated. -/
theorem main_eq (c : Dev nD) : main (F := F) c = seq ops := by
  simp only [main, main_part0, main_part1, fn_floor_divide.body, fn_where.body, seq, List.cons_append, List.nil_append,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem glueOps_sub : (glueOps : List (HloOp τ sig (Elt F))).Forall fun op => op.bufs ⊆ tcRefs τ sig :=
  ⟨StableHlo.unary_bufs_sub .., StableHlo.reshape_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.binary_bufs_sub .., StableHlo.unary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩

theorem tailOps_sub : (tailOps : List (HloOp τ sig (Elt F))).Forall fun op => op.bufs ⊆ tcRefs τ sig :=
  ⟨StableHlo.binary_bufs_sub .., StableHlo.unary_bufs_sub .., StableHlo.binary_bufs_sub .., StableHlo.binary_bufs_sub ..⟩

theorem ops_sub : (ops : List (HloOp τ sig (Elt F))).Forall fun op => op.bufs ⊆ tcRefs τ sig :=
  List.forall_iff_forall_mem.mpr fun op hop => by
    rcases List.mem_append.mp hop with h | h
    · exact List.forall_iff_forall_mem.mp glueOps_sub op h
    · exact List.forall_iff_forall_mem.mp tailOps_sub op h

/-- Every operation determines its results. -/
theorem glueOps_fresh : (glueOps : List (HloOp τ sig (Elt F))).Forall fun op => op.fresh = ∅ := by
  simp only [List.Forall]; repeat' constructor
theorem tailOps_fresh : (tailOps : List (HloOp τ sig (Elt F))).Forall fun op => op.fresh = ∅ := by
  simp only [List.Forall]; repeat' constructor

/-- Running two lines one after the other folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- THE TAIL, from any contents W: the result is the batched product of the Laplacian with x, plus the bias
    broadcast along the lanes, plus x. -/
theorem tail_result (W : Valuation τ sig (Elt F)) :
    after tailOps W (main_v49 : DevRef τ sig)
      = addf (addf (Host.dotGeneral dot_S64x207x207_S64x207x2048_S64x207x2048_2_1_1_2_0_0 none (W (main_v37 : DevRef τ sig)) (W (main_v1 : DevRef τ sig)))
          (broadcastInDim S64x207x2048 ![0, 1, 2] bcast_S64x207x1_S64x207x2048_0_1_2 (W (main_v45 : DevRef τ sig)))) (W (main_v1 : DevRef τ sig)) := by
  after_results

/-- At the compiled mesh, for any float values, from any memory with zero counters: every weakly fair execution of
    @main terminates, and every final state has each TensorCore buffer at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op hop => by
      rcases List.mem_append.mp hop with h | h
      · exact List.forall_iff_forall_mem.mp glueOps_fresh op h
      · exact List.forall_iff_forall_mem.mp tailOps_fresh op h)

/-- No operation writes an argument. -/
theorem arg0_kept (V : Valuation τ sig (Elt F)) : after ops V (main_arg0 : DevRef τ sig) = V (main_arg0 : DevRef τ sig) := by
  rw [after_append]; after_results_simp
theorem arg1_kept (V : Valuation τ sig (Elt F)) : after ops V (main_arg1 : DevRef τ sig) = V (main_arg1 : DevRef τ sig) := by
  rw [after_append]; after_results_simp
theorem arg2_kept (V : Valuation τ sig (Elt F)) : after ops V (main_arg2 : DevRef τ sig) = V (main_arg2 : DevRef τ sig) := by
  rw [after_append]; after_results_simp
theorem arg3_kept (V : Valuation τ sig (Elt F)) : after ops V (main_arg3 : DevRef τ sig) = V (main_arg3 : DevRef τ sig) := by
  rw [after_append]; after_results_simp
theorem arg4_kept (V : Valuation τ sig (Elt F)) : after ops V (main_arg4 : DevRef τ sig) = V (main_arg4 : DevRef τ sig) := by
  rw [after_append]; after_results_simp
theorem arg5_kept (V : Valuation τ sig (Elt F)) : after ops V (main_arg5 : DevRef τ sig) = V (main_arg5 : DevRef τ sig) := by
  rw [after_append]; after_results_simp

/-- What the glue leaves in a buffer, on device c, from the launch contents. -/
abbrev glueAt (m : (ℓ : Loc nD τ sig) → Buf (Elt F) ℓ) (c : Dev nD) : Valuation τ sig (Elt F) :=
  after glueOps (launchContents m c)

/-- THE RUN, read: the result is the tail's term of what the glue leaves; the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
        = addf (addf (Host.dotGeneral dot_S64x207x207_S64x207x2048_S64x207x2048_2_1_1_2_0_0 none (glueAt m c (main_v37 : DevRef τ sig)) (glueAt m c (main_v1 : DevRef τ sig)))
            (broadcastInDim S64x207x2048 ![0, 1, 2] bcast_S64x207x1_S64x207x2048_0_1_2 (glueAt m c (main_v45 : DevRef τ sig)))) (glueAt m c (main_v1 : DevRef τ sig))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v49).trans ((congrFun (after_append glueOps tailOps _) _).trans (tail_result _)),
      (h c main_arg0).trans (arg0_kept _), (h c main_arg1).trans (arg1_kept _), (h c main_arg2).trans (arg2_kept _),
      (h c main_arg3).trans (arg3_kept _), (h c main_arg4).trans (arg4_kept _), (h c main_arg5).trans (arg5_kept _)⟩)
    (run_fold m ρ)

end Cert.ReferenceIdeal.RefRun

end
-- ==== Proof.LibBatchDot.lean ====
/-
  A matrix product with one leading batch axis, read at an entry.

  For dimension numbers that batch the first axis of both operands, contract the left operand's last axis with the
  right operand's middle axis, and keep the left operand's middle axis and the right operand's last axis — a stack of
  B products of an M×K array with a K×N array — the contraction's sum at the result entry (b, p, q) is
  `∑ i : Fin K, lhs (b, p, i) * rhs (b, i, q)`.  The statement is for ANY such record (its well-formedness proof is
  irrelevant) and any extents, and serves a host `dot_general` and a kernel's product into a zero accumulator alike.
-/
import Idealize.ShloMosaic.Lib.ValueIdx
import Idealize.ShloMosaic.PureOps.Ideal.Laws

noncomputable section

open scoped BigOperators

namespace BatchDot

open Idealize.ShloMosaic Idealize.ShloMosaic.ValueIdx

variable {B M K N : Nat}

/-- The dimension numbers of a stack of products: axis 0 of both operands is the batch; axis 2 of the left operand is
    contracted with axis 1 of the right one; the left operand's axis 1 and the right operand's axis 2 are kept. -/
structure IsBatched (d : DotDims ⟨3, ![B, M, K]⟩ ⟨3, ![B, K, N]⟩ ⟨3, ![B, M, N]⟩) : Prop where
  lc : d.lhsContracting = [2]
  rc : d.rhsContracting = [1]
  ln : d.lhsNonContracting = [1]
  rn : d.rhsNonContracting = [2]
  lb : d.lhsBatch = [0]
  rb : d.rhsBatch = [0]

variable {d : DotDims ⟨3, ![B, M, K]⟩ ⟨3, ![B, K, N]⟩ ⟨3, ![B, M, N]⟩}

/-- The left operand's batch coordinate is the result's. -/
theorem lhs_batch (h : IsBatched d) (j : (⟨3, ![B, M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The left operand's row coordinate is the result's row. -/
theorem lhs_row (h : IsBatched d) (j : (⟨3, ![B, M, N]⟩ : Shape).Idx) (k : d.contr.Idx) :
    (d.lhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's batch coordinate is the result's. -/
theorem rhs_batch (h : IsBatched d) (j : (⟨3, ![B, M, N]⟩ : Shape).Idx) (k : d.contr.Idx) :
    (d.rhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

/-- The right operand's column coordinate is the result's column. -/
theorem rhs_col (h : IsBatched d) (j : (⟨3, ![B, M, N]⟩ : Shape).Idx) (k : d.contr.Idx) :
    (d.rhsIdx j k 2 : ℕ) = j 2 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsBatched d) : d.contr.rank = 1 := by
  rw [d.rank_contr, h.lc]; rfl

theorem contr_size (h : IsBatched d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry, inside one batch. -/
theorem sum_eq (h : IsBatched d) (lhs : (⟨3, ![B, M, K]⟩ : Shape).Idx → EReal) (rhs : (⟨3, ![B, K, N]⟩ : Shape).Idx → EReal)
    (b : Fin B) (p : Fin M) (q : Fin N) :
    ∑ k : d.contr.Idx, lhs (d.lhsIdx (ix3 b p q) k) * rhs (d.rhsIdx (ix3 b p q) k)
      = ∑ i : Fin K, lhs (ix3 b p i) * rhs (ix3 b i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix3 b p q) ((contrEquiv1 d K (contr_rank h) (contr_size h)).symm i) = ix3 b p i := by
    funext a; refine Fin.ext ?_
    match a with
    | ⟨0, _⟩ => exact lhs_batch h _ _
    | ⟨1, _⟩ => exact lhs_row h _ _
    | ⟨2, _⟩ => exact (d.lhsIdx_val_of_single h.lc _ _).trans hk
  have er : d.rhsIdx (ix3 b p q) ((contrEquiv1 d K (contr_rank h) (contr_size h)).symm i) = ix3 b i q := by
    funext a; refine Fin.ext ?_
    match a with
    | ⟨0, _⟩ => exact rhs_batch h _ _
    | ⟨1, _⟩ => exact (d.rhsIdx_val_of_single h.rc _ _).trans hk
    | ⟨2, _⟩ => exact rhs_col h _ _
  rw [el, er]

/-- The host's `dot_general`, at the exact instance, read at an entry. -/
theorem dotGeneral_apply (h : IsBatched d) {φ₁ φ₂ : FTy} (prec : Option ContractPrecision) (sched : HostSchedule)
    (lhs : FVec Ideal ⟨3, ![B, M, K]⟩ φ₁) (rhs : FVec Ideal ⟨3, ![B, K, N]⟩ φ₂) (b : Fin B) (p : Fin M) (q : Fin N) :
    FloatOps.dotGeneral d prec sched lhs rhs (ix3 b p q) = ∑ i : Fin K, lhs (ix3 b p i) * rhs (ix3 b i q) :=
  (Ideal.dotGeneral_apply d prec sched lhs rhs (ix3 b p q)).trans (sum_eq h lhs rhs b p q)

/-- A kernel's product into a zero accumulator, at the exact instance, read at an entry. -/
theorem matmul_zero_apply (h : IsBatched d) {φ₁ φ₂ : FTy} (prec : Option ContractPrecision)
    (lhs : FVec Ideal ⟨3, ![B, M, K]⟩ φ₁) (rhs : FVec Ideal ⟨3, ![B, K, N]⟩ φ₂) (b : Fin B) (p : Fin M) (q : Fin N) :
    matmul d prec lhs rhs (constant ⟨3, ![B, M, N]⟩ .f32 0x00000000#32) (ix3 b p q) = ∑ i : Fin K, lhs (ix3 b p i) * rhs (ix3 b i q) :=
  (Ideal.matmul_constant_zero_apply d prec lhs rhs (ix3 b p q)).trans (sum_eq h lhs rhs b p q)

end BatchDot

end
-- ==== Proof.Bridge.lean ====
/-
  The bridge between the two programs at the exact instance.

  Two facts.  First, the reference's last four operations ARE the graph-diffusion step: its batched `dot_general` read
  at (b, w, l) is ∑ v, lap[b, w, v] · x[b, v, l], its bias broadcast reads the bias column at (b, w, 0), and the two
  additions are grouped as in the step.  Second, the three operands the two programs feed into the step are the same
  arrays: the kernel's program prepares them with the very host operations the reference uses (only the order in which
  two independent intermediate values are computed differs), so once both lines are folded into terms of the
  arguments, and the arguments agree, the terms coincide.
-/
import proofs.«121237_j90872918049151_1_alg».proof.Proof.KernelValue
import proofs.«121237_j90872918049151_1_alg».proof.Proof.RefRun
import proofs.«121237_j90872918049151_1_alg».proof.Proof.LibBatchDot
import proofs.«121237_j90872918049151_1_alg».proof.Proof.Spec
import Idealize.ShloMosaic.Lib.Pipeline.Value

noncomputable section

open scoped BigOperators

namespace Cert.Proof.Bridge

open Idealize.ShloMosaic Idealize.ShloMosaic.TcCoe Idealize.SL.Sem Idealize.ShloMosaic.StableHlo
open Idealize.ShloMosaic.ValueIdx

/-! ## The reference's tail is the step -/

/-- The reference's product is a stack of 64 products of a 207 × 207 matrix with a 207 × 2048 one. -/
theorem dot_batched : BatchDot.IsBatched (B := 64) (M := 207) (K := 207) (N := 2048)
    Cert.ReferenceIdeal.dot_S64x207x207_S64x207x2048_S64x207x2048_2_1_1_2_0_0 :=
  ⟨rfl, rfl, rfl, rfl, rfl, rfl⟩

/-- The batched product plus the broadcast bias plus x, entry by entry, is the step. -/
theorem tail_eq_step (x : FVec Ideal Cert.ReferenceIdeal.S64x207x2048 .f32) (lap : FVec Ideal Cert.ReferenceIdeal.S64x207x207 .f32)
    (bias : FVec Ideal Cert.ReferenceIdeal.S64x207x1 .f32)
    (hbc : Cert.ReferenceIdeal.S64x207x1.BroadcastsInDim Cert.ReferenceIdeal.S64x207x2048 ![0, 1, 2]) :
    addf (addf (Host.dotGeneral (F := Ideal) Cert.ReferenceIdeal.dot_S64x207x207_S64x207x2048_S64x207x2048_2_1_1_2_0_0 none lap x)
        (broadcastInDim Cert.ReferenceIdeal.S64x207x2048 ![0, 1, 2] hbc bias)) x
      = GraphDiffusion.step x lap bias := by
  funext i
  obtain ⟨b, w, l, rfl⟩ : ∃ (b : Fin 64) (w : Fin 207) (l : Fin 2048), i = ix3 b w l := ⟨i 0, i 1, i 2, eq_ix3 i⟩
  rw [GraphDiffusion.step_apply]
  unfold GraphDiffusion.stepAt
  have hd : Host.dotGeneral (F := Ideal) Cert.ReferenceIdeal.dot_S64x207x207_S64x207x2048_S64x207x2048_2_1_1_2_0_0 none lap x (ix3 b w l)
      = ∑ v : Fin 207, lap (ix3 b w v) * x (ix3 b v l) := by
    simp only [Host.dotGeneral]
    exact BatchDot.dotGeneral_apply dot_batched none _ lap x b w l
  have hb : broadcastInDim Cert.ReferenceIdeal.S64x207x2048 ![0, 1, 2] hbc bias (ix3 b w l)
      = bias (ix3 b w (0 : Fin 1)) :=
    broadcastInDim_apply _ _ bias (ix3 b w l) (ix3 b w (0 : Fin 1)) fun a => by
      match a with
      | ⟨0, _⟩ => rfl
      | ⟨1, _⟩ => rfl
      | ⟨2, _⟩ => rfl
  show (Host.dotGeneral (F := Ideal) _ none lap x (ix3 b w l) + broadcastInDim _ _ _ bias (ix3 b w l)) + x (ix3 b w l) = _
  rw [hd, hb]

/-! ## The two programs feed the step the same three arrays -/

section Glue

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include hagree

/-- The feature slab: channel 0 of the input with its unit axis reshaped away, in both programs. -/
theorem x_agree (c : Dev Cert.KernelIdeal.nD) :
    Cert.ReferenceIdeal.RefRun.glueAt m' c (Cert.ReferenceIdeal.main_v1 : DevRef Cert.ReferenceIdeal.τ Cert.ReferenceIdeal.sig)
      = Cert.KernelIdeal.Diffusion.xArr m c := by
  obtain ⟨a0, a1, a2, a3, a4, a5⟩ := hagree c
  have e0 : launchContents m' c (Proc.devRef .tc Cert.ReferenceIdeal.main_arg0) = m (c, Proc.devRef .tc Cert.KernelIdeal.main_arg0) := a0
  dsimp only [Cert.ReferenceIdeal.RefRun.glueAt, Cert.KernelIdeal.Diffusion.xArr, Cert.KernelIdeal.Gen.V]
  simp only [Cert.KernelIdeal.Gen.hostOps0, Cert.KernelIdeal.Gen.hostOps0_1, Cert.KernelIdeal.Gen.hostOps0_2, List.flatten_cons,
    List.flatten_nil, List.append_nil, List.cons_append, List.nil_append]
  after_results_simp
  rw [e0]
  rfl

-- two lines of seventy-four operations are folded into terms here, one rewrite per operation and buffer inside the index pairs
set_option maxHeartbeats 16000000 in
/-- The Laplacian: the edge weights of each batch element's time slot scatter-added into a dense matrix, its column sums
    on the diagonal, minus the matrix — the same operations of the same four arguments in both programs. -/
theorem lap_agree (c : Dev Cert.KernelIdeal.nD) :
    Cert.ReferenceIdeal.RefRun.glueAt m' c (Cert.ReferenceIdeal.main_v37 : DevRef Cert.ReferenceIdeal.τ Cert.ReferenceIdeal.sig)
      = Cert.KernelIdeal.Diffusion.lapArr m c := by
  obtain ⟨a0, a1, a2, a3, a4, a5⟩ := hagree c
  have e1 : launchContents m' c (Proc.devRef .tc Cert.ReferenceIdeal.main_arg1) = m (c, Proc.devRef .tc Cert.KernelIdeal.main_arg1) := a1
  have e2 : launchContents m' c (Proc.devRef .tc Cert.ReferenceIdeal.main_arg2) = m (c, Proc.devRef .tc Cert.KernelIdeal.main_arg2) := a2
  have e3 : launchContents m' c (Proc.devRef .tc Cert.ReferenceIdeal.main_arg3) = m (c, Proc.devRef .tc Cert.KernelIdeal.main_arg3) := a3
  have e4 : launchContents m' c (Proc.devRef .tc Cert.ReferenceIdeal.main_arg4) = m (c, Proc.devRef .tc Cert.KernelIdeal.main_arg4) := a4
  dsimp only [Cert.ReferenceIdeal.RefRun.glueAt, Cert.KernelIdeal.Diffusion.lapArr, Cert.KernelIdeal.Gen.V]
  simp only [Cert.KernelIdeal.Gen.hostOps0, Cert.KernelIdeal.Gen.hostOps0_1, Cert.KernelIdeal.Gen.hostOps0_2, List.flatten_cons,
    List.flatten_nil, List.append_nil, List.cons_append, List.nil_append]
  after_results_simp
  -- the scatter's index pairs sit in a list of operands, which that pass does not enter: finish them one rewrite at a time
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [e1, e2, e3, e4]
  rfl

/-- The bias column: the bias table's row of each batch element's time slot, in both programs. -/
theorem bias_agree (c : Dev Cert.KernelIdeal.nD) :
    Cert.ReferenceIdeal.RefRun.glueAt m' c (Cert.ReferenceIdeal.main_v45 : DevRef Cert.ReferenceIdeal.τ Cert.ReferenceIdeal.sig)
      = Cert.KernelIdeal.Diffusion.biasArr m c := by
  obtain ⟨a0, a1, a2, a3, a4, a5⟩ := hagree c
  have e1 : launchContents m' c (Proc.devRef .tc Cert.ReferenceIdeal.main_arg1) = m (c, Proc.devRef .tc Cert.KernelIdeal.main_arg1) := a1
  have e5 : launchContents m' c (Proc.devRef .tc Cert.ReferenceIdeal.main_arg5) = m (c, Proc.devRef .tc Cert.KernelIdeal.main_arg5) := a5
  dsimp only [Cert.ReferenceIdeal.RefRun.glueAt, Cert.KernelIdeal.Diffusion.biasArr, Cert.KernelIdeal.Gen.V]
  simp only [Cert.KernelIdeal.Gen.hostOps0, Cert.KernelIdeal.Gen.hostOps0_1, Cert.KernelIdeal.Gen.hostOps0_2, List.flatten_cons,
    List.flatten_nil, List.append_nil, List.cons_append, List.nil_append]
  after_results_simp
  rw [e1, e5]
  rfl

end Glue

end Cert.Proof.Bridge

end
-- ==== Proof.lean ====
/-
  The graph-diffusion kernel against its jnp reference, over the extended reals.

  Both programs first prepare, with the same host operations of the same arguments, three arrays: the feature slab x
  (channel 0 of the input: 64 batch elements × 207 nodes × 2048 lanes), a per-batch 207 × 207 Laplacian (the edge
  weights of the batch element's time slot scatter-added into a dense matrix W, the column sums of W on the diagonal,
  minus W) and a per-batch bias column (207 × 1).  They then compute the step

      out[b, w, l] = (∑ v, lap[b, w, v] · x[b, v, l]  +  bias[b, w, 0])  +  x[b, w, l].

  The kernel does it one batch element per grid point: a 207 × 207 by 207 × 2048 product into a zero accumulator (its two
  roundings to bf16 are the identity on exact values), the bias column broadcast along the lanes, the slab added back,
  stored into the point's block of the result; the blocks cover the result.  The reference does it with one batched
  `dot_general`, a broadcast and two additions.  Read at an entry both are the formula above, with the two additions
  grouped the same way, so the claim needs no law of the extended reals beyond reading the two products as sums: in
  particular it never uses that the inputs are finite.

  The frames of the kernel's two programs are the generated ones; the reference's frame is its run (one straight line of
  host operations, the outlined floor division written at its call site) with the result dropped; the idealization
  rewrote no operation, so nothing is owed for it.
-/
import proofs.«121237_j90872918049151_1_alg».proof.Defs
import proofs.«121237_j90872918049151_1_alg».proof.Proof.Gen.Kernel
import proofs.«121237_j90872918049151_1_alg».proof.Proof.Gen.Kernel.Skeleton
import proofs.«121237_j90872918049151_1_alg».proof.Proof.Gen.Kernel.Launch
import proofs.«121237_j90872918049151_1_alg».proof.Proof.Gen.Kernel.Points
import proofs.«121237_j90872918049151_1_alg».proof.Proof.Gen.Kernel.Frame
import proofs.«121237_j90872918049151_1_alg».proof.Proof.Gen.KernelIdeal
import proofs.«121237_j90872918049151_1_alg».proof.Proof.Gen.KernelIdeal.Skeleton
import proofs.«121237_j90872918049151_1_alg».proof.Proof.Gen.KernelIdeal.Launch
import proofs.«121237_j90872918049151_1_alg».proof.Proof.Gen.KernelIdeal.Points
import proofs.«121237_j90872918049151_1_alg».proof.Proof.Gen.KernelIdeal.Frame
import proofs.«121237_j90872918049151_1_alg».proof.Proof.Gen.KernelIdeal.Value
import proofs.«121237_j90872918049151_1_alg».proof.Proof.Gen.ReferenceIdeal
import proofs.«121237_j90872918049151_1_alg».proof.Proof.Gen.Pre_finite_inputs
import proofs.«121237_j90872918049151_1_alg».proof.Proof.KernelValue
import proofs.«121237_j90872918049151_1_alg».proof.Proof.RefRun
import proofs.«121237_j90872918049151_1_alg».proof.Proof.Bridge
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories that agree on the arguments both programs end with the step of the same three arrays: the kernel's
    result array block by block, the reference's by its last four operations, and the three arrays agree because the
    same host operations prepare them from arguments that agree. -/
theorem algebraic : Cert.algebraic_KernelIdeal_ReferenceIdeal := by
  intro m ρ m' ρ' _ hagree
  refine ⟨fun c => Cert.KernelIdeal.Diffusion.result m c, Cert.KernelIdeal.Diffusion.run m ρ, ?_⟩
  refine (θ_run Cert.ReferenceIdeal.defs _ _).mono (fun _ h c => ⟨(h c).1.trans ?_, (h c).2⟩)
    (Cert.ReferenceIdeal.RefRun.run (F := Ideal) m' ρ')
  rw [Cert.Proof.Bridge.tail_eq_step, Cert.Proof.Bridge.x_agree m m' hagree c, Cert.Proof.Bridge.lap_agree m m' hagree c,
    Cert.Proof.Bridge.bias_agree m m' hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
